-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x64 : Shape := ⟨3, ![4096, 200, 64]⟩
abbrev S8x64 : Shape := ⟨2, ![8, 64]⟩
abbrev S_ : Shape := ⟨0, ![]⟩

class Facts : Prop where
  bcast_S_S4096x200x64 : S_.BroadcastsInDim S4096x200x64 (![] : Fin 0 → Fin S4096x200x64.rank)
  reducesTo_S4096x200x64_S_d0_1_2 : S4096x200x64.ReducesTo [0, 1, 2] S_
  h_S_ : 0 < S_.numel
  bcast_S_S8x64 : S_.BroadcastsInDim S8x64 (![] : Fin 0 → Fin S8x64.rank)
  reducesTo_S8x64_S_d0_1 : S8x64.ReducesTo [0, 1] S_

variable [Facts]

def fn {F : FTy → Type} [FloatOps F] (main_arg0 : FVec F S4096x200x64 .f32) (main_arg1 : FVec F S8x64 .f32) : IVec S_ 1 :=
  let main_v0 : FVec F S4096x200x64 .f32 := Host.absf main_arg0
  let main_cst : FVec F S_ .f32 := constant S_ .f32 0x7F800000#32
  let main_v1 : FVec F S4096x200x64 .f32 := broadcastInDim S4096x200x64 ![] bcast_S_S4096x200x64 main_cst
  let main_v2 : IVec S4096x200x64 1 := cmpf .olt main_v0 main_v1
  let main_c : IVec S_ 1 := constantI S_ 1 1#1
  let main_v3 : IVec S_ 1 := (fun x v => Host.reduce IntOp.andi x v reducesTo_S4096x200x64_S_d0_1_2 h_S_) main_v2 main_c
  let main_v4 : FVec F S8x64 .f32 := Host.absf main_arg1
  let main_cst_0 : FVec F S_ .f32 := constant S_ .f32 0x7F800000#32
  let main_v5 : FVec F S8x64 .f32 := broadcastInDim S8x64 ![] bcast_S_S8x64 main_cst_0
  let main_v6 : IVec S8x64 1 := cmpf .olt main_v4 main_v5
  let main_c_1 : IVec S_ 1 := constantI S_ 1 1#1
  let main_v7 : IVec S_ 1 := (fun x v => Host.reduce IntOp.andi x v reducesTo_S8x64_S_d0_1 h_S_) main_v6 main_c_1
  let main_v8 : IVec S_ 1 := andi main_v3 main_v7
  main_v8
-- ==== Kernel.lean ====
abbrev S4096x200x64 : Shape := ⟨3, ![4096, 200, 64]⟩
abbrev S8x64 : Shape := ⟨2, ![8, 64]⟩
abbrev S_ : Shape := ⟨0, ![]⟩
abbrev S8 : Shape := ⟨1, ![8]⟩
abbrev S8x1 : Shape := ⟨2, ![8, 1]⟩
abbrev S4096x8x64 : Shape := ⟨3, ![4096, 8, 64]⟩
abbrev S64x200x64 : Shape := ⟨3, ![64, 200, 64]⟩
abbrev S64x8x64 : Shape := ⟨3, ![64, 8, 64]⟩
abbrev S64x200 : Shape := ⟨2, ![64, 200]⟩
abbrev S64x200x1 : Shape := ⟨3, ![64, 200, 1]⟩
abbrev S12800x64 : Shape := ⟨2, ![12800, 64]⟩
abbrev S64x8 : Shape := ⟨2, ![64, 8]⟩
abbrev S12800x8 : Shape := ⟨2, ![12800, 8]⟩
abbrev S64x200x8 : Shape := ⟨3, ![64, 200, 8]⟩

abbrev nBuf : Space → Nat
  | .hbm => 13
  | .vmem => 5
  | .smem => 0
  | _ => 0

abbrev bufTy : (tb : Table) → Fin (tcTables nBuf tb) → BufTy
  | .hbm, ⟨0, _⟩ => ⟨S4096x200x64, .f32⟩
  | .hbm, ⟨1, _⟩ => ⟨S8x64, .f32⟩
  | .hbm, ⟨2, _⟩ => ⟨S8x64, .f32⟩
  | .hbm, ⟨3, _⟩ => ⟨S_, .f32⟩
  | .hbm, ⟨4, _⟩ => ⟨S8, .f32⟩
  | .hbm, ⟨5, _⟩ => ⟨S8x1, .f32⟩
  | .hbm, ⟨6, _⟩ => ⟨S_, .f32⟩
  | .hbm, ⟨7, _⟩ => ⟨S8x1, .f32⟩
  | .hbm, ⟨8, _⟩ => ⟨S8x1, .f32⟩
  | .hbm, ⟨9, _⟩ => ⟨S8x1, .f32⟩
  | .hbm, ⟨10, _⟩ => ⟨S8x64, .f32⟩
  | .hbm, ⟨11, _⟩ => ⟨S8x64, .f32⟩
  | .hbm, ⟨12, _⟩ => ⟨S4096x8x64, .f32⟩
  | .local _ .vmem, ⟨0, _⟩ => ⟨S64x200x64, .f32⟩
  | .local _ .vmem, ⟨1, _⟩ => ⟨S64x200x64, .f32⟩
  | .local _ .vmem, ⟨2, _⟩ => ⟨S8x64, .f32⟩
  | .local _ .vmem, ⟨3, _⟩ => ⟨S64x8x64, .f32⟩
  | .local _ .vmem, ⟨4, _⟩ => ⟨S64x8x64, .f32⟩
  | _, _ => ⟨S4096x200x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x200x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x8x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S8x64_S8_d1 : S8x64.ReducesTo [1] S8
  h_S_ : 0 < S_.numel
  bcast_S8_S8x1_0 : S8.BroadcastsInDim S8x1 (![0] : Fin 1 → Fin S8x1.rank)
  bcast_S_S8x1 : S_.BroadcastsInDim S8x1 (![] : Fin 0 → Fin S8x1.rank)
  bcast_S8x1_S8x64_0_1 : S8x1.BroadcastsInDim S8x64 (![0, 1] : Fin 2 → Fin S8x64.rank)
  inb_S64x200x64_S64x200x64_0_0_0 : ∀ a, (![0, 0, 0] : Fin 3 → Nat) a + S64x200x64.size a ≤ S64x200x64.size a
  h_S64x200x64 : 0 < S64x200x64.numel
  inb_S8x64_S8x64_0_0 : ∀ a, (![0, 0] : Fin 2 → Nat) a + S8x64.size a ≤ S8x64.size a
  h_S8x64 : 0 < S8x64.numel
  shapeCasts_S8x64_S8x64 : S8x64.ShapeCasts S8x64
  reduces_S64x200x64_S64x200 : S64x200x64.Reduces [2] S64x200
  shapeCasts_S64x200_S64x200x1 : S64x200.ShapeCasts S64x200x1
  broadcasts_S64x200x1_S64x200x64 : S64x200x1.Broadcasts S64x200x64
  shapeCasts_S64x200x64_S12800x64 : S64x200x64.ShapeCasts S12800x64
  transposes_S8x64_p1_0_S64x8 : S8x64.Transposes [1, 0] S64x8
  shapeCasts_S12800x8_S64x200x8 : S12800x8.ShapeCasts S64x200x8
  reduces_S64x200x8_S64x200 : S64x200x8.Reduces [2] S64x200
  broadcasts_S64x200x1_S64x200x8 : S64x200x1.Broadcasts S64x200x8
  inb_S64x8x64_S64x8x64_0_0_0 : ∀ a, (![0, 0, 0] : Fin 3 → Nat) a + S64x8x64.size a ≤ S64x8x64.size a
  h_S64x8x64 : 0 < S64x8x64.numel
  dot_S12800x64_S64x8_S12800x8_1_0_0_1_n_n_wf : DotDims.WF S12800x64 S64x8 S12800x8 [1] [0] [0] [1] [] []
  dot_S64x200x8_S64x200x64_S64x8x64_1_1_2_2_0_0_wf : DotDims.WF S64x200x8 S64x200x64 S64x8x64 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x200x64.size a ≤ S4096x200x64.size a
  hwx0_0 : ∀ i : grid0.Coords, EltTy.bits .f32 = 32 ∨ (Rect.block (s := S4096x200x64) S64x200x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x64.size a ≤ S8x64.size a
  hwx0_1 : ∀ i : grid0.Coords, EltTy.bits .f32 = 32 ∨ (Rect.block (s := S8x64) S8x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8x64.size a ≤ S4096x8x64.size a
  hwx0_2 : ∀ i : grid0.Coords, EltTy.bits .f32 = 32 ∨ (Rect.block (s := S4096x8x64) S64x8x64.size (cc0_transform_2 i) (hinb0_2 i)).WholeWords (EltTy.packing .f32)

variable [Facts₀]

def dot_S12800x64_S64x8_S12800x8_1_0_0_1_n_n : DotDims S12800x64 S64x8 S12800x8 where
  lhsContracting := [1]
  rhsContracting := [0]
  lhsNonContracting := [0]
  rhsNonContracting := [1]
  lhsBatch := []
  rhsBatch := []
  wf := dot_S12800x64_S64x8_S12800x8_1_0_0_1_n_n_wf
def dot_S64x200x8_S64x200x64_S64x8x64_1_1_2_2_0_0 : DotDims S64x200x8 S64x200x64 S64x8x64 where
  lhsContracting := [1]
  rhsContracting := [1]
  lhsNonContracting := [2]
  rhsNonContracting := [2]
  lhsBatch := [0]
  rhsBatch := [0]
  wf := dot_S64x200x8_S64x200x64_S64x8x64_1_1_2_2_0_0_wf

abbrev win0_0 : Pipeline.Window sig grid0 :=
  Pipeline.Window.ofSpec (Memref.whole main_arg0) S64x200x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S64x8x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x200x64 : Shape := ⟨3, ![4096, 200, 64]⟩
abbrev S8x64 : Shape := ⟨2, ![8, 64]⟩
abbrev S_ : Shape := ⟨0, ![]⟩
abbrev S4096x200 : Shape := ⟨2, ![4096, 200]⟩
abbrev S4096x200x1 : Shape := ⟨3, ![4096, 200, 1]⟩
abbrev S8 : Shape := ⟨1, ![8]⟩
abbrev S8x1 : Shape := ⟨2, ![8, 1]⟩
abbrev S4096x200x8 : Shape := ⟨3, ![4096, 200, 8]⟩
abbrev S4096x8x200 : Shape := ⟨3, ![4096, 8, 200]⟩
abbrev S4096x1x200 : Shape := ⟨3, ![4096, 1, 200]⟩
abbrev S4096x8x64 : Shape := ⟨3, ![4096, 8, 64]⟩

abbrev nBuf : Space → Nat
  | .hbm => 39
  | .vmem => 0
  | .smem => 0
  | _ => 0

abbrev bufTy : (tb : Table) → Fin (tcTables nBuf tb) → BufTy
  | .hbm, ⟨0, _⟩ => ⟨S4096x200x64, .f32⟩
  | .hbm, ⟨1, _⟩ => ⟨S8x64, .f32⟩
  | .hbm, ⟨2, _⟩ => ⟨S4096x200x64, .f32⟩
  | .hbm, ⟨3, _⟩ => ⟨S_, .f32⟩
  | .hbm, ⟨4, _⟩ => ⟨S4096x200, .f32⟩
  | .hbm, ⟨5, _⟩ => ⟨S4096x200x1, .f32⟩
  | .hbm, ⟨6, _⟩ => ⟨S_, .f32⟩
  | .hbm, ⟨7, _⟩ => ⟨S4096x200x1, .f32⟩
  | .hbm, ⟨8, _⟩ => ⟨S4096x200x1, .f32⟩
  | .hbm, ⟨9, _⟩ => ⟨S4096x200x1, .f32⟩
  | .hbm, ⟨10, _⟩ => ⟨S4096x200x64, .f32⟩
  | .hbm, ⟨11, _⟩ => ⟨S4096x200x64, .f32⟩
  | .hbm, ⟨12, _⟩ => ⟨S8x64, .f32⟩
  | .hbm, ⟨13, _⟩ => ⟨S_, .f32⟩
  | .hbm, ⟨14, _⟩ => ⟨S8, .f32⟩
  | .hbm, ⟨15, _⟩ => ⟨S8x1, .f32⟩
  | .hbm, ⟨16, _⟩ => ⟨S_, .f32⟩
  | .hbm, ⟨17, _⟩ => ⟨S8x1, .f32⟩
  | .hbm, ⟨18, _⟩ => ⟨S8x1, .f32⟩
  | .hbm, ⟨19, _⟩ => ⟨S8x1, .f32⟩
  | .hbm, ⟨20, _⟩ => ⟨S8x64, .f32⟩
  | .hbm, ⟨21, _⟩ => ⟨S8x64, .f32⟩
  | .hbm, ⟨22, _⟩ => ⟨S4096x200x8, .f32⟩
  | .hbm, ⟨23, _⟩ => ⟨S4096x8x200, .f32⟩
  | .hbm, ⟨24, _⟩ => ⟨S_, .f32⟩
  | .hbm, ⟨25, _⟩ => ⟨S4096x200, .f32⟩
  | .hbm, ⟨26, _⟩ => ⟨S_, .f32⟩
  | .hbm, ⟨27, _⟩ => ⟨S4096x200, .f32⟩
  | .hbm, ⟨28, _⟩ => ⟨S4096x200, .f32⟩
  | .hbm, ⟨29, _⟩ => ⟨S4096x1x200, .f32⟩
  | .hbm, ⟨30, _⟩ => ⟨S4096x8x200, .f32⟩
  | .hbm, ⟨31, _⟩ => ⟨S4096x8x200, .f32⟩
  | .hbm, ⟨32, _⟩ => ⟨S4096x8x200, .f32⟩
  | .hbm, ⟨33, _⟩ => ⟨S_, .f32⟩
  | .hbm, ⟨34, _⟩ => ⟨S4096x200, .f32⟩
  | .hbm, ⟨35, _⟩ => ⟨S4096x1x200, .f32⟩
  | .hbm, ⟨36, _⟩ => ⟨S4096x8x200, .f32⟩
  | .hbm, ⟨37, _⟩ => ⟨S4096x8x200, .f32⟩
  | .hbm, ⟨38, _⟩ => ⟨S4096x8x64, .f32⟩
  | _, _ => ⟨S4096x200x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  reducesTo_S4096x200x64_S4096x200_d2 : S4096x200x64.ReducesTo [2] S4096x200
  h_S_ : 0 < S_.numel
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S4096x200x1_S4096x200x64_0_1_2 : S4096x200x1.BroadcastsInDim S4096x200x64 (![0, 1, 2] : Fin 3 → Fin S4096x200x64.rank)
  reducesTo_S8x64_S8_d1 : S8x64.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x64_0_1 : S8x1.BroadcastsInDim S8x64 (![0, 1] : Fin 2 → Fin S8x64.rank)
  transposes_S4096x200x8_S4096x8x200_0_2_1 : S4096x200x8.Transposes [0, 2, 1] S4096x8x200
  reducesTo_S4096x8x200_S4096x200_d1 : S4096x8x200.ReducesTo [1] S4096x200
  bcast_S_S4096x200 : S_.BroadcastsInDim S4096x200 (![] : Fin 0 → Fin S4096x200.rank)
  bcast_S4096x200_S4096x1x200_0_2 : S4096x200.BroadcastsInDim S4096x1x200 (![0, 2] : Fin 2 → Fin S4096x1x200.rank)
  bcast_S4096x1x200_S4096x8x200_0_1_2 : S4096x1x200.BroadcastsInDim S4096x8x200 (![0, 1, 2] : Fin 3 → Fin S4096x8x200.rank)
  dot_S4096x200x64_S8x64_S4096x200x8_2_1_01_0_n_n_wf : DotDims.WF S4096x200x64 S8x64 S4096x200x8 [2] [1] [0, 1] [0] [] []
  dot_S4096x8x200_S4096x200x64_S4096x8x64_2_1_1_2_0_0_wf : DotDims.WF S4096x8x200 S4096x200x64 S4096x8x64 [2] [1] [1] [2] [0] [0]

variable [Facts₀]

def dot_S4096x200x64_S8x64_S4096x200x8_2_1_01_0_n_n : DotDims S4096x200x64 S8x64 S4096x200x8 where
  lhsContracting := [2]
  rhsContracting := [1]
  lhsNonContracting := [0, 1]
  rhsNonContracting := [0]
  lhsBatch := []
  rhsBatch := []
  wf := dot_S4096x200x64_S8x64_S4096x200x8_2_1_01_0_n_n_wf
def dot_S4096x8x200_S4096x200x64_S4096x8x64_2_1_1_2_0_0 : DotDims S4096x8x200 S4096x200x64 S4096x8x64 where
  lhsContracting := [2]
  rhsContracting := [1]
  lhsNonContracting := [1]
  rhsNonContracting := [2]
  lhsBatch := [0]
  rhsBatch := [0]
  wf := dot_S4096x8x200_S4096x200x64_S4096x8x64_2_1_1_2_0_0_wf

class Facts : Prop extends Facts₀ where

variable [Facts]
-- ==== Proof.SlotSpec.lean ====
/-
  The slot projector as one function of its two arguments, over the extended reals.

  A sample is L = 200 rows of D = 64 numbers; there are K = 8 prototype rows. Every row r is scaled by
  the reciprocal root of its squared length clipped below at ε, r ↦ r · rsqrt (max (Σ_d r_d², ε)). Row l of the sample and
  prototype k meet in the score s(l, k) = Σ_d û(l, d) · q̂(k, d) of their scaled rows. Over the K scores of one row the
  weights are the softmax w(l, k) = exp (s(l, k) − μ_l) / Σ_k' exp (s(l, k') − μ_l), with μ_l the largest of the K scores (taken
  from −∞). Slot k of the result is the weighted sum Σ_l w(l, k) · x(l, ·) of the UNSCALED rows.

  Everything is stated over plain coordinates `Fin 200`, `Fin 64`, `Fin 8`; the two float literals stay as their words.
-/
import Idealize.ShloMosaic.PureOps.Ideal
import Idealize.ShloMosaic.Lib.ValueIdx

noncomputable section

namespace Cert.SlotSpec

open Idealize.ShloMosaic Idealize.ShloMosaic.ValueIdx

/-- The clip ε under the root: the f32 nearest 1e-12, as its word. -/
def eps : EReal := Ideal.ofBits .f32 0x2B8CBCCC#32

/-- The value a maximum starts from: the word of −∞. -/
def floor : EReal := Ideal.ofBits .f32 0xFF800000#32

/-- The factor that scales a row: the reciprocal root of its squared length, clipped below at ε. -/
def invLen (r : Fin 64 → EReal) : EReal := Ideal.rsqrt (max (∑ d : Fin 64, r d * r d) eps)

/-- A row scaled by that factor. -/
def unitRow (r : Fin 64 → EReal) (d : Fin 64) : EReal := r d * invLen r

/-- The score of row `l` of a sample against prototype `k`: the scaled row times the (already scaled) prototype, summed over D. -/
def score (x : Fin 200 → Fin 64 → EReal) (q : Fin 8 → Fin 64 → EReal) (l : Fin 200) (k : Fin 8) : EReal :=
  ∑ d : Fin 64, unitRow (x l) d * q k d

/-- The largest of K scores, from −∞ (and once more against −∞, as both programs take it). -/
def peak (s : Fin 8 → EReal) : EReal := max floor ((Finset.univ : Finset (Fin 8)).fold max floor s)

/-- The softmax of K scores at `k`. -/
def weight (s : Fin 8 → EReal) (k : Fin 8) : EReal :=
  Ideal.div (Ideal.exp (s k - peak s)) (∑ k' : Fin 8, Ideal.exp (s k' - peak s))

/-- Slot `k` of one sample: its rows weighted by their softmax weight for prototype `k`, summed over the L rows. -/
def slot (x : Fin 200 → Fin 64 → EReal) (q : Fin 8 → Fin 64 → EReal) (k : Fin 8) (d : Fin 64) : EReal :=
  ∑ l : Fin 200, weight (score x q l) k * x l d

/-- Sample `b` of the batch, by rows. -/
def sample (X : (⟨3, ![4096, 200, 64]⟩ : Shape).Idx → EReal) (b : Fin 4096) : Fin 200 → Fin 64 → EReal :=
  fun l d => X (ix3 b l d)

/-- A [8, 64] array by rows. -/
def rows (P : (⟨2, ![8, 64]⟩ : Shape).Idx → EReal) : Fin 8 → Fin 64 → EReal := fun k d => P (ix2 k d)

/-- The prototypes, each scaled to unit length. -/
def unitRows (P : (⟨2, ![8, 64]⟩ : Shape).Idx → EReal) : Fin 8 → Fin 64 → EReal := fun k => unitRow (rows P k)

/-- THE RESULT: entry (b, k, d) is slot k of sample b against the scaled prototypes. -/
def projected (X : (⟨3, ![4096, 200, 64]⟩ : Shape).Idx → EReal) (P : (⟨2, ![8, 64]⟩ : Shape).Idx → EReal) :
    (⟨3, ![4096, 8, 64]⟩ : Shape).Idx → EReal :=
  fun i => slot (sample X (i 0)) (unitRows P) (i 1) (i 2)

end Cert.SlotSpec

end
-- ==== Proof.LibKeepdims3.lean ====
/-
  The keepdims layouts of a reduction over the last axis of a rank-3 array, read at an index: an [a, b] array recast with a
  trailing unit axis as [a, b, 1], and an [a, b, 1] array repeated along that axis to [a, b, c].
-/
import Idealize.ShloMosaic.Lib.Pipeline.Value
import Idealize.ShloMosaic.Lib.ValueIdx

noncomputable section

namespace Idealize.ShloMosaic.Keepdims3

open Idealize.ShloMosaic Idealize.ShloMosaic.ValueIdx

variable {α : Type}

/-- An `[a, b]` array cast to `[a, b, 1]` reads, at `(p, s, u)`, the operand at `(p, s)`, whatever the unit coordinate `u`:
    both positions are the (p · b + s)-th in row-major order. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_three, Shape.rowMajor_val_two]
    show p.val * b + s.val = (p.val * b + s.val) * 1 + u.val
    rw [hu, Nat.mul_one, Nat.add_zero])

/-- An `[a, b, 1]` array broadcast to `[a, b, c]` reads, at `(p, s, k)`, the operand's entry of `(p, s)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Idealize.ShloMosaic.Keepdims3

end
-- ==== Proof.LibFlattenRows.lean ====
/-
  The two leading axes of a rank-3 array merged into one, and split again, read at an index: an [a, b, c] array recast as
  [n, c] with n = a · b has row (p, s) of the one at row p · b + s of the other, column for column, because both positions are
  the ((p · b + s) · c + k)-th in row-major order.
-/
import Idealize.ShloMosaic.Lib.Pipeline.Value
import Idealize.ShloMosaic.Lib.ValueIdx

noncomputable section

namespace Idealize.ShloMosaic.FlattenRows

open Idealize.ShloMosaic Idealize.ShloMosaic.ValueIdx

variable {α : Type}

/-- An `[a, b, c]` array recast as `[n, c]` reads, at `(r, k)` with `r = p · b + s`, the operand at `(p, s, k)`. -/
theorem shapeCast_abc_nc_apply {a b c n : ℕ} (x : (⟨3, ![a, b, c]⟩ : Shape).Idx → α)
    (h : (⟨3, ![a, b, c]⟩ : Shape).ShapeCasts ⟨2, ![n, c]⟩) (p : Fin a) (s : Fin b) (k : Fin c) (r : Fin n)
    (hr : r.val = p.val * b + s.val) : shapeCast ⟨2, ![n, c]⟩ x h (ix2 r k) = x (ix3 p s k) :=
  shapeCast_apply x h _ _ (by
    rw [Shape.rowMajor_val_three, Shape.rowMajor_val_two]
    show (p.val * b + s.val) * c + k.val = r.val * c + k.val
    rw [hr])

/-- An `[n, c]` array recast as `[a, b, c]` reads, at `(p, s, k)`, the operand at `(r, k)` with `r = p · b + s`. -/
theorem shapeCast_nc_abc_apply {a b c n : ℕ} (y : (⟨2, ![n, c]⟩ : Shape).Idx → α)
    (h : (⟨2, ![n, c]⟩ : Shape).ShapeCasts ⟨3, ![a, b, c]⟩) (p : Fin a) (s : Fin b) (k : Fin c) (r : Fin n)
    (hr : r.val = p.val * b + s.val) : shapeCast ⟨3, ![a, b, c]⟩ y h (ix3 p s k) = y (ix2 r k) :=
  shapeCast_apply y h _ _ (by
    rw [Shape.rowMajor_val_three, Shape.rowMajor_val_two]
    show r.val * c + k.val = (p.val * b + s.val) * c + k.val
    rw [hr])

end Idealize.ShloMosaic.FlattenRows

end
-- ==== Proof.KernelScores.lean ====
/-
  The kernel body's first half, read at an index: from a block of 64 samples and the 8 scaled prototypes to the scores.

  Row (p, l) of the block is scaled by the reciprocal root of its clipped squared length; the 64 × 200 scaled rows, laid out
  as one 12800 × 64 matrix, are multiplied with the transposed prototypes; the 12800 × 8 product, cut back into 64 × 200 × 8,
  holds at (p, l, k) the score of row l of sample p against prototype k.
-/
import proofs.«114951_j21157008900255_1_alg».proof.Proof.Gen.KernelIdeal.Skeleton
import proofs.«114951_j21157008900255_1_alg».proof.Proof.SlotSpec
import proofs.«114951_j21157008900255_1_alg».proof.Proof.LibKeepdims3
import proofs.«114951_j21157008900255_1_alg».proof.Proof.LibFlattenRows
import Idealize.ShloMosaic.PureOps.Ideal.Laws
import Idealize.ShloMosaic.Lib.Pipeline.Value
import Idealize.ShloMosaic.Lib.ValueIdx

noncomputable section

namespace Cert.KernelSlots

open Idealize.ShloMosaic Idealize.ShloMosaic.ValueIdx Cert.KernelIdeal Cert.KernelIdeal.Facts₀ Cert.SlotSpec
open Idealize.ShloMosaic.Keepdims3 Idealize.ShloMosaic.FlattenRows

/-- Row `l` of sample `p` of a block. -/
def blockRow (x0 : FVec Ideal S64x200x64 .f32) (p : Fin 64) (l : Fin 200) : Fin 64 → EReal := fun d => x0 (ix3 p l d)

/-- The squared length of every row of the block. -/
def sqLen (x0 : FVec Ideal S64x200x64 .f32) : FVec Ideal S64x200 .f32 :=
  multiReduction .add [2] S64x200 (mulf x0 x0) 0x00000000#32 reduces_S64x200x64_S64x200 (.inl rfl) rfl

theorem sqLen_apply (x0 : FVec Ideal S64x200x64 .f32) (p : Fin 64) (l : Fin 200) :
    sqLen x0 (ix2 p l) = ∑ d : Fin 64, blockRow x0 p l d * blockRow x0 p l d := by
  unfold sqLen
  refine (Ideal.multiReduction_add_single (mulf x0 x0) 0x00000000#32 reduces_S64x200x64_S64x200 (.inl rfl) rfl (ix2 p l)).trans ?_
  refine Finset.sum_congr rfl fun d _ => ?_
  have e : reduces_S64x200x64_S64x200.lift (ix2 p l) d = ix3 p l d :=
    funext fun a => Fin.ext (by match a with | ⟨0, _⟩ => rfl | ⟨1, _⟩ => rfl | ⟨2, _⟩ => rfl)
  rw [e]; rfl

/-- The block with every row scaled to unit length. -/
def scaled (x0 : FVec Ideal S64x200x64 .f32) : FVec Ideal S64x200x64 .f32 :=
  mulf x0 (broadcastTo S64x200x64 (rsqrt (maximumf (shapeCast S64x200x1 (sqLen x0) shapeCasts_S64x200_S64x200x1)
    (broadcast S64x200x1 (Scalar.ofBits .f32 0x2B8CBCCC#32)))) broadcasts_S64x200x1_S64x200x64)

theorem scaled_apply (x0 : FVec Ideal S64x200x64 .f32) (p : Fin 64) (l : Fin 200) (d : Fin 64) :
    scaled x0 (ix3 p l d) = unitRow (blockRow x0 p l) d := by
  unfold scaled
  refine (mulf_apply _ _ _).trans ?_
  refine congrArg (x0 (ix3 p l d) * ·) ?_
  refine (broadcastTo_ab1_abc_apply _ broadcasts_S64x200x1_S64x200x64 p l d).trans ?_
  show Ideal.rsqrt (max (shapeCast S64x200x1 (sqLen x0) shapeCasts_S64x200_S64x200x1 (ix3 p l (0 : Fin 1))) _) = _
  rw [shapeCast_ab_ab1_apply (sqLen x0) shapeCasts_S64x200_S64x200x1 p l (0 : Fin 1), sqLen_apply]
  rfl

/-! ## The product with the transposed prototypes -/

theorem lhsScores_0 (i : S12800x8.Idx) (q : dot_S12800x64_S64x8_S12800x8_1_0_0_1_n_n.contr.Idx) :
    (dot_S12800x64_S64x8_S12800x8_1_0_0_1_n_n.lhsIdx i q 0).val = (i 0).val := by
  unfold DotDims.lhsIdx
  rw [dif_neg (show ¬(0 : Fin S12800x64.rank) ∈ dot_S12800x64_S64x8_S12800x8_1_0_0_1_n_n.lhsBatch by decide), dif_pos (show (0 : Fin S12800x64.rank) ∈ dot_S12800x64_S64x8_S12800x8_1_0_0_1_n_n.lhsNonContracting by decide)]
  rfl
theorem lhsScores_1 (i : S12800x8.Idx) (q : dot_S12800x64_S64x8_S12800x8_1_0_0_1_n_n.contr.Idx) :
    (dot_S12800x64_S64x8_S12800x8_1_0_0_1_n_n.lhsIdx i q 1).val = (q ⟨0, by decide⟩).val :=
  dot_S12800x64_S64x8_S12800x8_1_0_0_1_n_n.lhsIdx_val_of_single rfl i q
theorem rhsScores_0 (i : S12800x8.Idx) (q : dot_S12800x64_S64x8_S12800x8_1_0_0_1_n_n.contr.Idx) :
    (dot_S12800x64_S64x8_S12800x8_1_0_0_1_n_n.rhsIdx i q 0).val = (q ⟨0, by decide⟩).val :=
  dot_S12800x64_S64x8_S12800x8_1_0_0_1_n_n.rhsIdx_val_of_single rfl i q
theorem rhsScores_1 (i : S12800x8.Idx) (q : dot_S12800x64_S64x8_S12800x8_1_0_0_1_n_n.contr.Idx) :
    (dot_S12800x64_S64x8_S12800x8_1_0_0_1_n_n.rhsIdx i q 1).val = (i 1).val := by
  unfold DotDims.rhsIdx
  rw [dif_neg (show ¬(1 : Fin S64x8.rank) ∈ dot_S12800x64_S64x8_S12800x8_1_0_0_1_n_n.rhsBatch by decide), dif_pos (show (1 : Fin S64x8.rank) ∈ dot_S12800x64_S64x8_S12800x8_1_0_0_1_n_n.rhsNonContracting by decide)]
  rfl

/-- A 12800 × 64 matrix times a 64 × 8 one into a zero accumulator, at (r, k): the sum over the 64 shared coordinates. -/
theorem scoresDot_apply (a : FVec Ideal S12800x64 .f32) (b : FVec Ideal S64x8 .f32) (r : Fin 12800) (k : Fin 8) :
    matmul dot_S12800x64_S64x8_S12800x8_1_0_0_1_n_n none a b (constant S12800x8 .f32 0x00000000#32) (ix2 r k)
      = ∑ d : Fin 64, a (ix2 r d) * b (ix2 d k) := by
  simp only [matmul]
  rw [Ideal.matmul_constant_zero_apply, ← Equiv.sum_comp (ValueIdx.contrEquiv1 dot_S12800x64_S64x8_S12800x8_1_0_0_1_n_n 64 rfl rfl).symm]
  refine Finset.sum_congr rfl fun d _ => ?_
  have hd := ValueIdx.contrEquiv1_symm_val dot_S12800x64_S64x8_S12800x8_1_0_0_1_n_n 64 rfl rfl d
  have el : dot_S12800x64_S64x8_S12800x8_1_0_0_1_n_n.lhsIdx (ix2 r k) ((ValueIdx.contrEquiv1 dot_S12800x64_S64x8_S12800x8_1_0_0_1_n_n 64 rfl rfl).symm d) = ix2 r d := funext fun ax => Fin.ext (by
    match ax with
    | ⟨0, _⟩ => exact lhsScores_0 _ _
    | ⟨1, _⟩ => exact (lhsScores_1 _ _).trans hd)
  have er : dot_S12800x64_S64x8_S12800x8_1_0_0_1_n_n.rhsIdx (ix2 r k) ((ValueIdx.contrEquiv1 dot_S12800x64_S64x8_S12800x8_1_0_0_1_n_n 64 rfl rfl).symm d) = ix2 d k := funext fun ax => Fin.ext (by
    match ax with
    | ⟨0, _⟩ => exact (rhsScores_0 _ _).trans hd
    | ⟨1, _⟩ => exact rhsScores_1 _ _)
  rw [el, er]

/-- The scores of a block against the prototype rows `x1`. -/
def scores (x0 : FVec Ideal S64x200x64 .f32) (x1 : FVec Ideal S8x64 .f32) : FVec Ideal S64x200x8 .f32 :=
  shapeCast S64x200x8 (matmul dot_S12800x64_S64x8_S12800x8_1_0_0_1_n_n none
    (shapeCast S12800x64 (scaled x0) shapeCasts_S64x200x64_S12800x64)
    (transpose S64x8 [1, 0] (shapeCast S8x64 x1 shapeCasts_S8x64_S8x64) transposes_S8x64_p1_0_S64x8)
    (constant S12800x8 .f32 0x00000000#32)) shapeCasts_S12800x8_S64x200x8

/-- Entry (p, l, k) of the scores is the score of row l of sample p against prototype row k. -/
theorem scores_apply (x0 : FVec Ideal S64x200x64 .f32) (x1 : FVec Ideal S8x64 .f32) (p : Fin 64) (l : Fin 200) (k : Fin 8) :
    scores x0 x1 (ix3 p l k) = score (blockRow x0 p) (rows x1) l k := by
  unfold scores
  have hr : p.val * 200 + l.val < 12800 := by have := p.isLt; have := l.isLt; omega
  refine (shapeCast_nc_abc_apply _ shapeCasts_S12800x8_S64x200x8 p l k ⟨p.val * 200 + l.val, hr⟩ rfl).trans ?_
  rw [scoresDot_apply]
  unfold score
  refine Finset.sum_congr rfl fun d _ => ?_
  rw [shapeCast_abc_nc_apply (scaled x0) shapeCasts_S64x200x64_S12800x64 p l d ⟨p.val * 200 + l.val, hr⟩ rfl, scaled_apply]
  refine congrArg (unitRow (blockRow x0 p l) d * ·) ?_
  refine (transpose_apply [1, 0] _ transposes_S8x64_p1_0_S64x8 (ix2 d k) (ix2 k d) (fun b => match b with
    | ⟨0, _⟩ => rfl
    | ⟨1, _⟩ => rfl)).trans ?_
  rw [shapeCast_self]
  rfl

end Cert.KernelSlots

end
-- ==== Proof.KernelWeights.lean ====
/-
  The kernel body's second half, read at an index, for ANY 64 × 200 × 8 array of scores: the softmax over the 8 scores of a
  row, and the weighted sum of a sample's 200 rows, slot by slot.
-/
import proofs.«114951_j21157008900255_1_alg».proof.Proof.Gen.KernelIdeal.Skeleton
import proofs.«114951_j21157008900255_1_alg».proof.Proof.SlotSpec
import proofs.«114951_j21157008900255_1_alg».proof.Proof.LibKeepdims3
import Idealize.ShloMosaic.PureOps.Ideal.Laws
import Idealize.ShloMosaic.Lib.Pipeline.Value
import Idealize.ShloMosaic.Lib.ValueIdx

noncomputable section

namespace Cert.KernelSlots

open Idealize.ShloMosaic Idealize.ShloMosaic.ValueIdx Cert.KernelIdeal Cert.KernelIdeal.Facts₀ Cert.SlotSpec
open Idealize.ShloMosaic.Keepdims3

/-- The 8 scores of row `l` of sample `p`. -/
def scoreRow (s : FVec Ideal S64x200x8 .f32) (p : Fin 64) (l : Fin 200) : Fin 8 → EReal := fun k => s (ix3 p l k)

/-- The largest score of every row. -/
def rowPeak (s : FVec Ideal S64x200x8 .f32) : FVec Ideal S64x200 .f32 :=
  maximumf (broadcast S64x200 (Scalar.ofBits .f32 0xFF800000#32))
    (multiReduction .maximumf [2] S64x200 s 0xFF800000#32 reduces_S64x200x8_S64x200 (.inl rfl) rfl)

theorem rowPeak_apply (s : FVec Ideal S64x200x8 .f32) (p : Fin 64) (l : Fin 200) :
    rowPeak s (ix2 p l) = peak (scoreRow s p l) := by
  unfold rowPeak
  refine (maximumf_apply _ _ _).trans ?_
  unfold peak
  refine congrArg (max floor ·) ?_
  refine (Ideal.multiReduction_maximumf_single s 0xFF800000#32 reduces_S64x200x8_S64x200 (.inl rfl) rfl (ix2 p l)).trans ?_
  have e : (s ∘ reduces_S64x200x8_S64x200.lift (ix2 p l)) = scoreRow s p l := funext fun k =>
    congrArg s (funext fun a => Fin.ext (by match a with | ⟨0, _⟩ => rfl | ⟨1, _⟩ => rfl | ⟨2, _⟩ => rfl))
  rw [e]; rfl

/-- Every score less its row's largest, exponentiated. -/
def shifted (s : FVec Ideal S64x200x8 .f32) : FVec Ideal S64x200x8 .f32 :=
  exp (subf s (broadcastTo S64x200x8 (shapeCast S64x200x1 (rowPeak s) shapeCasts_S64x200_S64x200x1) broadcasts_S64x200x1_S64x200x8))

theorem shifted_apply (s : FVec Ideal S64x200x8 .f32) (p : Fin 64) (l : Fin 200) (k : Fin 8) :
    shifted s (ix3 p l k) = Ideal.exp (scoreRow s p l k - peak (scoreRow s p l)) := by
  unfold shifted
  show Ideal.exp (s (ix3 p l k) - broadcastTo S64x200x8 _ broadcasts_S64x200x1_S64x200x8 (ix3 p l k)) = _
  rw [broadcastTo_ab1_abc_apply _ broadcasts_S64x200x1_S64x200x8 p l k,
    shapeCast_ab_ab1_apply (rowPeak s) shapeCasts_S64x200_S64x200x1 p l (0 : Fin 1), rowPeak_apply]
  rfl

/-- The sum of a row's 8 exponentials. -/
def rowMass (s : FVec Ideal S64x200x8 .f32) : FVec Ideal S64x200 .f32 :=
  multiReduction .add [2] S64x200 (shifted s) 0x00000000#32 reduces_S64x200x8_S64x200 (.inl rfl) rfl

theorem rowMass_apply (s : FVec Ideal S64x200x8 .f32) (p : Fin 64) (l : Fin 200) :
    rowMass s (ix2 p l) = ∑ k' : Fin 8, Ideal.exp (scoreRow s p l k' - peak (scoreRow s p l)) := by
  unfold rowMass
  refine (Ideal.multiReduction_add_single (shifted s) 0x00000000#32 reduces_S64x200x8_S64x200 (.inl rfl) rfl (ix2 p l)).trans ?_
  refine Finset.sum_congr rfl fun k' _ => ?_
  have e : reduces_S64x200x8_S64x200.lift (ix2 p l) k' = ix3 p l k' :=
    funext fun a => Fin.ext (by match a with | ⟨0, _⟩ => rfl | ⟨1, _⟩ => rfl | ⟨2, _⟩ => rfl)
  rw [e]
  exact shifted_apply s p l k'

/-- The softmax weights. -/
def weights (s : FVec Ideal S64x200x8 .f32) : FVec Ideal S64x200x8 .f32 :=
  divf (shifted s) (broadcastTo S64x200x8 (shapeCast S64x200x1 (rowMass s) shapeCasts_S64x200_S64x200x1) broadcasts_S64x200x1_S64x200x8)

theorem weights_apply (s : FVec Ideal S64x200x8 .f32) (p : Fin 64) (l : Fin 200) (k : Fin 8) :
    weights s (ix3 p l k) = weight (scoreRow s p l) k := by
  unfold weights
  refine (divf_apply _ _ _).trans ?_
  rw [broadcastTo_ab1_abc_apply _ broadcasts_S64x200x1_S64x200x8 p l k,
    shapeCast_ab_ab1_apply (rowMass s) shapeCasts_S64x200_S64x200x1 p l (0 : Fin 1), rowMass_apply, shifted_apply]
  rfl

/-! ## The weighted sum of a sample's rows -/

theorem lhsSlots_0 (i : S64x8x64.Idx) (q : dot_S64x200x8_S64x200x64_S64x8x64_1_1_2_2_0_0.contr.Idx) :
    (dot_S64x200x8_S64x200x64_S64x8x64_1_1_2_2_0_0.lhsIdx i q 0).val = (i 0).val := by
  unfold DotDims.lhsIdx
  rw [dif_pos (show (0 : Fin S64x200x8.rank) ∈ dot_S64x200x8_S64x200x64_S64x8x64_1_1_2_2_0_0.lhsBatch by decide)]
  rfl
theorem lhsSlots_1 (i : S64x8x64.Idx) (q : dot_S64x200x8_S64x200x64_S64x8x64_1_1_2_2_0_0.contr.Idx) :
    (dot_S64x200x8_S64x200x64_S64x8x64_1_1_2_2_0_0.lhsIdx i q 1).val = (q ⟨0, by decide⟩).val :=
  dot_S64x200x8_S64x200x64_S64x8x64_1_1_2_2_0_0.lhsIdx_val_of_single rfl i q
theorem lhsSlots_2 (i : S64x8x64.Idx) (q : dot_S64x200x8_S64x200x64_S64x8x64_1_1_2_2_0_0.contr.Idx) :
    (dot_S64x200x8_S64x200x64_S64x8x64_1_1_2_2_0_0.lhsIdx i q 2).val = (i 1).val := by
  unfold DotDims.lhsIdx
  rw [dif_neg (show ¬(2 : Fin S64x200x8.rank) ∈ dot_S64x200x8_S64x200x64_S64x8x64_1_1_2_2_0_0.lhsBatch by decide), dif_pos (show (2 : Fin S64x200x8.rank) ∈ dot_S64x200x8_S64x200x64_S64x8x64_1_1_2_2_0_0.lhsNonContracting by decide)]
  rfl
theorem rhsSlots_0 (i : S64x8x64.Idx) (q : dot_S64x200x8_S64x200x64_S64x8x64_1_1_2_2_0_0.contr.Idx) :
    (dot_S64x200x8_S64x200x64_S64x8x64_1_1_2_2_0_0.rhsIdx i q 0).val = (i 0).val := by
  unfold DotDims.rhsIdx
  rw [dif_pos (show (0 : Fin S64x200x64.rank) ∈ dot_S64x200x8_S64x200x64_S64x8x64_1_1_2_2_0_0.rhsBatch by decide)]
  rfl
theorem rhsSlots_1 (i : S64x8x64.Idx) (q : dot_S64x200x8_S64x200x64_S64x8x64_1_1_2_2_0_0.contr.Idx) :
    (dot_S64x200x8_S64x200x64_S64x8x64_1_1_2_2_0_0.rhsIdx i q 1).val = (q ⟨0, by decide⟩).val :=
  dot_S64x200x8_S64x200x64_S64x8x64_1_1_2_2_0_0.rhsIdx_val_of_single rfl i q
theorem rhsSlots_2 (i : S64x8x64.Idx) (q : dot_S64x200x8_S64x200x64_S64x8x64_1_1_2_2_0_0.contr.Idx) :
    (dot_S64x200x8_S64x200x64_S64x8x64_1_1_2_2_0_0.rhsIdx i q 2).val = (i 2).val := by
  unfold DotDims.rhsIdx
  rw [dif_neg (show ¬(2 : Fin S64x200x64.rank) ∈ dot_S64x200x8_S64x200x64_S64x8x64_1_1_2_2_0_0.rhsBatch by decide), dif_pos (show (2 : Fin S64x200x64.rank) ∈ dot_S64x200x8_S64x200x64_S64x8x64_1_1_2_2_0_0.rhsNonContracting by decide)]
  rfl

/-- Sample by sample, a 200 × 8 matrix transposed times a 200 × 64 one into a zero accumulator: at (p, k, d) the sum over the
    200 rows of sample p. -/
theorem slotsDot_apply (w : FVec Ideal S64x200x8 .f32) (x0 : FVec Ideal S64x200x64 .f32) (p : Fin 64) (k : Fin 8) (d : Fin 64) :
    matmul dot_S64x200x8_S64x200x64_S64x8x64_1_1_2_2_0_0 none w x0 (constant S64x8x64 .f32 0x00000000#32) (ix3 p k d)
      = ∑ l : Fin 200, w (ix3 p l k) * x0 (ix3 p l d) := by
  simp only [matmul]
  rw [Ideal.matmul_constant_zero_apply, ← Equiv.sum_comp (ValueIdx.contrEquiv1 dot_S64x200x8_S64x200x64_S64x8x64_1_1_2_2_0_0 200 rfl rfl).symm]
  refine Finset.sum_congr rfl fun l _ => ?_
  have hl := ValueIdx.contrEquiv1_symm_val dot_S64x200x8_S64x200x64_S64x8x64_1_1_2_2_0_0 200 rfl rfl l
  have el : dot_S64x200x8_S64x200x64_S64x8x64_1_1_2_2_0_0.lhsIdx (ix3 p k d) ((ValueIdx.contrEquiv1 dot_S64x200x8_S64x200x64_S64x8x64_1_1_2_2_0_0 200 rfl rfl).symm l) = ix3 p l k := funext fun ax => Fin.ext (by
    match ax with
    | ⟨0, _⟩ => exact lhsSlots_0 _ _
    | ⟨1, _⟩ => exact (lhsSlots_1 _ _).trans hl
    | ⟨2, _⟩ => exact lhsSlots_2 _ _)
  have er : dot_S64x200x8_S64x200x64_S64x8x64_1_1_2_2_0_0.rhsIdx (ix3 p k d) ((ValueIdx.contrEquiv1 dot_S64x200x8_S64x200x64_S64x8x64_1_1_2_2_0_0 200 rfl rfl).symm l) = ix3 p l d := funext fun ax => Fin.ext (by
    match ax with
    | ⟨0, _⟩ => exact rhsSlots_0 _ _
    | ⟨1, _⟩ => exact (rhsSlots_1 _ _).trans hl
    | ⟨2, _⟩ => exact rhsSlots_2 _ _)
  rw [el, er]

/-- The slots of a block from its scores. -/
def slots (s : FVec Ideal S64x200x8 .f32) (x0 : FVec Ideal S64x200x64 .f32) : FVec Ideal S64x8x64 .f32 :=
  matmul dot_S64x200x8_S64x200x64_S64x8x64_1_1_2_2_0_0 none (weights s) x0 (constant S64x8x64 .f32 0x00000000#32)

theorem slots_apply (s : FVec Ideal S64x200x8 .f32) (x0 : FVec Ideal S64x200x64 .f32) (p : Fin 64) (k : Fin 8) (d : Fin 64) :
    slots s x0 (ix3 p k d) = ∑ l : Fin 200, weight (scoreRow s p l) k * x0 (ix3 p l d) := by
  unfold slots
  rw [slotsDot_apply]
  exact Finset.sum_congr rfl fun l _ => by rw [weights_apply]

end Cert.KernelSlots

end
-- ==== Proof.KernelBlock.lean ====
/-
  What the kernel body stores for one block, read at an index: entry (p, k, d) is slot k of sample p of the block against
  the prototype rows the body loads.
-/
import proofs.«114951_j21157008900255_1_alg».proof.Proof.KernelScores
import proofs.«114951_j21157008900255_1_alg».proof.Proof.KernelWeights

noncomputable section

namespace Cert.KernelSlots

open Idealize.ShloMosaic Idealize.ShloMosaic.ValueIdx Cert.KernelIdeal Cert.KernelIdeal.Gen Cert.SlotSpec

/-- The body's stored value is the slots of the block's scores. -/
theorem payload_eq (x0 : FVec Ideal S64x200x64 .f32) (x1 : FVec Ideal S8x64 .f32) :
    k0_pay1 (F := Ideal) x0 x1 = slots (scores x0 x1) x0 := rfl

/-- Entry (p, k, d) of the stored value: slot k of sample p, d-th coordinate. -/
theorem payload_apply (x0 : FVec Ideal S64x200x64 .f32) (x1 : FVec Ideal S8x64 .f32) (p : Fin 64) (k : Fin 8) (d : Fin 64) :
    k0_pay1 (F := Ideal) x0 x1 (ix3 p k d) = slot (blockRow x0 p) (rows x1) k d := by
  rw [payload_eq, slots_apply]
  unfold slot
  refine Finset.sum_congr rfl fun l _ => ?_
  have e : scoreRow (scores x0 x1) p l = score (blockRow x0 p) (rows x1) l := funext fun k' => scores_apply x0 x1 p l k'
  rw [e]
  rfl

end Cert.KernelSlots

end
-- ==== Proof.RefSlots.lean ====
/-
  The reference, stage by stage, is the slot projector: its scaled rows, its scores (computed as [B, L, K] and transposed to
  [B, K, L]), the softmax over the K axis, and the weighted sum over L, each read at an index.
-/
import proofs.«114951_j21157008900255_1_alg».proof.Proof.Gen.ReferenceIdeal.Read
import proofs.«114951_j21157008900255_1_alg».proof.Proof.SlotSpec
import Idealize.ShloMosaic.PureOps.Ideal.Laws
import Idealize.ShloMosaic.PureOps.Reduce
import Idealize.ShloMosaic.Lib.ValueIdx

noncomputable section

namespace Cert.RefSlots

open Idealize.ShloMosaic Idealize.ShloMosaic.ValueIdx Cert.ReferenceIdeal Cert.ReferenceIdeal.Facts₀ Cert.ReferenceIdeal.Read Cert.SlotSpec

variable (X : (⟨S4096x200x64, .f32⟩ : BufTy).Contents (Elt Ideal)) (P : (⟨S8x64, .f32⟩ : BufTy).Contents (Elt Ideal))

/-- The reference's scaled inputs: row (b, l) scaled to unit length. -/
theorem unitX (b : Fin 4096) (l : Fin 200) (d : Fin 64) :
    val_main_v7 (F := Ideal) X (ix3 b l d) = unitRow (sample X b l) d := by
  rw [val_main_v7_apply, val_main_v6_apply, val_main_v5_apply, val_main_v4_apply, val_main_v2_apply, val_main_v1_apply,
    val_main_v3_apply, val_main_cst_0_apply, val_main_cst_apply]
  have e : ∀ k : Fin 64, idx_main_v1 (idx_main_v2 (idx_main_v6 (ix3 b l d))) k = ix3 b l k := fun k =>
    funext fun a => Fin.ext (by match a with | ⟨0, _⟩ => rfl | ⟨1, _⟩ => rfl | ⟨2, _⟩ => rfl)
  simp only [e, val_main_v0_apply]
  show X (ix3 b l d) * Ideal.rsqrt (max (Ideal.ofBits .f32 0x00000000#32 + ∑ k : Fin 64, X (ix3 b l k) * X (ix3 b l k)) eps) = _
  rw [Ideal.ofBits_zero_f32, zero_add]
  rfl

/-- The reference's scaled prototypes. -/
theorem unitP (k : Fin 8) (d : Fin 64) :
    val_main_v15 (F := Ideal) P (ix2 k d) = unitRows P k d := by
  rw [val_main_v15_apply, val_main_v14_apply, val_main_v13_apply, val_main_v12_apply, val_main_v10_apply, val_main_v9_apply,
    val_main_v11_apply, val_main_cst_2_apply, val_main_cst_1_apply]
  have e : ∀ j : Fin 64, idx_main_v9 (idx_main_v10 (idx_main_v14 (ix2 k d))) j = ix2 k j := fun j =>
    funext fun a => Fin.ext (by match a with | ⟨0, _⟩ => rfl | ⟨1, _⟩ => rfl)
  simp only [e, val_main_v8_apply]
  show P (ix2 k d) * Ideal.rsqrt (max (Ideal.ofBits .f32 0x00000000#32 + ∑ j : Fin 64, P (ix2 k j) * P (ix2 k j)) eps) = _
  rw [Ideal.ofBits_zero_f32, zero_add]
  rfl

/-- The reference's transposed scores: at (b, k, l) the score of row l of sample b against prototype k. -/
theorem refScore (b : Fin 4096) (k : Fin 8) (l : Fin 200) :
    val_main_v17 (F := Ideal) X P (ix3 b k l) = score (sample X b) (unitRows P) l k := by
  rw [val_main_v17_apply, val_main_v16_apply]
  unfold score
  refine Finset.sum_congr rfl fun d _ => ?_
  have el : lidx_main_v16 (idx_main_v17 (ix3 b k l)) d = ix3 b l d :=
    funext fun a => Fin.ext (by match a with | ⟨0, _⟩ => rfl | ⟨1, _⟩ => rfl | ⟨2, _⟩ => rfl)
  have er : ridx_main_v16 (idx_main_v17 (ix3 b k l)) d = ix2 k d :=
    funext fun a => Fin.ext (by match a with | ⟨0, _⟩ => rfl | ⟨1, _⟩ => rfl)
  rw [el, er, unitX, unitP]

/-- The K scores of row (b, l). -/
abbrev rowScores (b : Fin 4096) (l : Fin 200) : Fin 8 → EReal := score (sample X b) (unitRows P) l

/-- The K axis of a [4096, 8, 200] array can be reduced away. -/
theorem reducesK : S4096x8x200.Reduces [1] S4096x200 := by decide

/-- The host's maximum over the K axis from −∞, at (b, l): the fold of `max` over the 8 entries (b, ·, l). -/
theorem hostRowMax (y : FVec Ideal S4096x8x200 .f32) (b : Fin 4096) (l : Fin 200) :
    Host.reduce FloatOps.maximumf y (constant (F := Ideal) S_ .f32 0xFF800000#32) reducesTo_S4096x8x200_S4096x200_d1 h_S_ (ix2 b l)
      = (Finset.univ : Finset (Fin 8)).fold max floor (fun k => y (ix3 b k l)) := by
  refine (Host.reduce_eq_fold_single FloatOps.maximumf y (constant (F := Ideal) S_ .f32 0xFF800000#32)
    reducesTo_S4096x8x200_S4096x200_d1 reducesK h_S_ (ix2 b l)).trans ?_
  have e : (y ∘ reducesK.lift (ix2 b l)) = fun k => y (ix3 b k l) := funext fun k =>
    congrArg y (funext fun a => Fin.ext (by match a with | ⟨0, _⟩ => rfl | ⟨1, _⟩ => rfl | ⟨2, _⟩ => rfl))
  rw [e]
  rfl

/-- The reference's row maximum. -/
theorem refPeak (b : Fin 4096) (l : Fin 200) :
    val_main_v20 (F := Ideal) X P (ix2 b l) = peak (rowScores X P b l) := by
  rw [val_main_v20_apply, val_main_v19_apply, val_main_cst_4_apply]
  unfold peak
  refine congrArg (max floor ·) ?_
  have e : (fun k => val_main_v17 (F := Ideal) X P (ix3 b k l)) = rowScores X P b l := funext fun k => refScore X P b k l
  exact (hostRowMax (val_main_v17 (F := Ideal) X P) b l).trans (by rw [e])

/-- The reference's exponentials. -/
theorem refExp (b : Fin 4096) (k : Fin 8) (l : Fin 200) :
    val_main_v24 (F := Ideal) X P (ix3 b k l) = Ideal.exp (rowScores X P b l k - peak (rowScores X P b l)) := by
  rw [val_main_v24_apply, val_main_v23_apply, val_main_v22_apply, val_main_v21_apply]
  have e : idx_main_v21 (idx_main_v22 (ix3 b k l)) = ix2 b l :=
    funext fun a => Fin.ext (by match a with | ⟨0, _⟩ => rfl | ⟨1, _⟩ => rfl)
  rw [e, refPeak, refScore]
  rfl

/-- The reference's row sums of exponentials. -/
theorem refMass (b : Fin 4096) (l : Fin 200) :
    val_main_v25 (F := Ideal) X P (ix2 b l) = ∑ k' : Fin 8, Ideal.exp (rowScores X P b l k' - peak (rowScores X P b l)) := by
  rw [val_main_v25_apply, val_main_cst_5_apply]
  show Ideal.ofBits .f32 0x00000000#32 + _ = _
  rw [Ideal.ofBits_zero_f32, zero_add]
  refine Finset.sum_congr rfl fun k' _ => ?_
  have e : idx_main_v25 (ix2 b l) k' = ix3 b k' l :=
    funext fun a => Fin.ext (by match a with | ⟨0, _⟩ => rfl | ⟨1, _⟩ => rfl | ⟨2, _⟩ => rfl)
  rw [e, refExp]

/-- The reference's softmax weights. -/
theorem refWeight (b : Fin 4096) (k : Fin 8) (l : Fin 200) :
    val_main_v28 (F := Ideal) X P (ix3 b k l) = weight (rowScores X P b l) k := by
  rw [val_main_v28_apply, val_main_v27_apply, val_main_v26_apply]
  have e : idx_main_v26 (idx_main_v27 (ix3 b k l)) = ix2 b l :=
    funext fun a => Fin.ext (by match a with | ⟨0, _⟩ => rfl | ⟨1, _⟩ => rfl)
  rw [e, refMass, refExp]
  rfl

/-- THE REFERENCE'S RESULT is the slot projector of its two arguments. -/
theorem reference_eq : val_main_v29 (F := Ideal) X P = projected X P := by
  funext i
  obtain ⟨b, k, d, rfl⟩ : ∃ (b : Fin 4096) (k : Fin 8) (d : Fin 64), i = ix3 b k d := ⟨i 0, i 1, i 2, eq_ix3 i⟩
  rw [val_main_v29_apply]
  show _ = slot (sample X b) (unitRows P) k d
  unfold slot
  refine Finset.sum_congr rfl fun l _ => ?_
  have el : lidx_main_v29 (ix3 b k d) l = ix3 b k l :=
    funext fun a => Fin.ext (by match a with | ⟨0, _⟩ => rfl | ⟨1, _⟩ => rfl | ⟨2, _⟩ => rfl)
  have er : ridx_main_v29 (ix3 b k d) l = ix3 b l d :=
    funext fun a => Fin.ext (by match a with | ⟨0, _⟩ => rfl | ⟨1, _⟩ => rfl | ⟨2, _⟩ => rfl)
  rw [el, er, refWeight]
  rfl

end Cert.RefSlots

end
-- ==== Proof.KernelArray.lean ====
/-
  From blocks to the array. Grid point t stages samples 64·t … 64·t + 63 of the inputs and all 8 prototype rows (scaled, before
  the launch, by the host operations), and writes back the 64 × 8 × 64 block of slots of those samples. So what point t writes
  back is block t of ONE function of the two arguments, the slot projector; the 64 blocks tile the result, which therefore
  ends holding the slot projector of the arguments.
-/
import proofs.«114951_j21157008900255_1_alg».proof.Proof.Gen.KernelIdeal.Value
import proofs.«114951_j21157008900255_1_alg».proof.Proof.KernelBlock
import proofs.«114951_j21157008900255_1_alg».proof.Proof.RefSlots
import Idealize.ShloMosaic.Lib.StableHlo.Run

noncomputable section

namespace Cert.KernelSlots

open Cert.KernelIdeal Cert.KernelIdeal.Gen Idealize.ShloMosaic Idealize.ShloMosaic.TcCoe Idealize.SL.Sem
open Idealize.ShloMosaic.ValueIdx Cert.SlotSpec
open Idealize.ShloMosaic.Pipeline (Dat)

variable (m : (ℓ : Loc nD τ sig) → Buf (Elt Ideal) ℓ) (ρ : Dev nD → PrngReg)

/-- The inputs as launched. -/
abbrev argX (c : Dev nD) : S4096x200x64.Idx → EReal := m ((c : Thread nD τ).loc main_arg0)
/-- The prototypes as launched. -/
abbrev argP (c : Dev nD) : S8x64.Idx → EReal := m ((c : Thread nD τ).loc main_arg1)

/-- The array the second window stages is what the host operations before the launch computed: the prototypes with every row
    scaled to unit length (the same operations, in the same order, as the reference's). -/
theorem protoRows (c : Dev nD) :
    (V m c main_v7 : S8x64.Idx → EReal) = Cert.ReferenceIdeal.Read.val_main_v15 (F := Ideal) (argP m c) := by
  dsimp only [V, hostOps0]; after_results; rfl

theorem protoRows_apply (c : Dev nD) (k : Fin 8) (d : Fin 64) : V m c main_v7 (ix2 k d) = unitRows (argP m c) k d :=
  (congrFun (protoRows m c) (ix2 k d)).trans (Cert.RefSlots.unitP (argP m c) k d)

/-- One entry of a block's stored value against the whole arrays: if row (p, ·) of the block is sample b of the inputs and the
    loaded prototype rows are the scaled prototypes, entry (p, k, d) is entry (b, k, d) of the slot projector. -/
theorem block_entry (xb : FVec Ideal S64x200x64 .f32) (pb : FVec Ideal S8x64 .f32)
    (X : S4096x200x64.Idx → EReal) (P : S8x64.Idx → EReal) (p : Fin 64) (b : Fin 4096)
    (hx : ∀ (l : Fin 200) (d : Fin 64), xb (ix3 p l d) = X (ix3 b l d))
    (hp : ∀ (k : Fin 8) (d : Fin 64), pb (ix2 k d) = unitRows P k d) (k : Fin 8) (d : Fin 64) :
    k0_pay1 (F := Ideal) xb pb (ix3 p k d) = projected X P (ix3 b k d) := by
  rw [payload_apply]
  show slot (blockRow xb p) (rows pb) k d = slot (sample X b) (unitRows P) k d
  have e1 : blockRow xb p = sample X b := funext fun l => funext fun d => hx l d
  have e2 : rows pb = unitRows P := funext fun k => funext fun d => hp k d
  rw [e1, e2]

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps, decided over the 64 grid points: the input block moves with the output block along the batch axis,
    every other block index is 0, and the batch block index stays below 64. -/
theorem index_facts : ∀ t : Fin cfg0.N, win0_0.index t (0 : Fin 3) = win0_2.index t (0 : Fin 3)
    ∧ win0_0.index t (1 : Fin 3) = 0 ∧ win0_0.index t (2 : Fin 3) = 0
    ∧ win0_1.index t (0 : Fin 2) = 0 ∧ win0_1.index t (1 : Fin 2) = 0
    ∧ win0_2.index t (1 : Fin 3) = 0 ∧ win0_2.index t (2 : Fin 3) = 0
    ∧ win0_2.index t (0 : Fin 3) ≤ 63 :=
  (by decide +kernel : ∀ t : Fin grid0.N, _)

/-- Every batch block is some point's. -/
theorem index_onto : ∀ q : Fin 64, ∃ t : Fin cfg0.N, win0_2.index t = ![q.val, 0, 0] :=
  (by decide +kernel : ∀ q : Fin 64, ∃ t : Fin grid0.N, win0_2.index t = ![q.val, 0, 0])

/-- WHAT POINT `t` WRITES BACK is block `t` of the slot projector of the arguments. -/
theorem flushed_eq (c : Dev nD) (t : Fin cfg0.N) :
    (dats m 0 c).flushed 2 t = ((cfg0.win 2).blk t).view.read (Elt Ideal) (projected (argX m c) (argP m c)) := by
  rw [Cert.KernelIdeal.Value.flushed2]
  unfold out0_2
  rw [View.canon_unit_zero zero3]
  simp only [View.ld_unit_zero (S := S64x200x64) zero3, View.ld_unit_zero (S := S8x64) zero2]
  obtain ⟨e0, e1, e2, e3, e4, e5, e6, e7⟩ := index_facts t
  funext j
  obtain ⟨p, k, d, rfl⟩ : ∃ (p : Fin 64) (k : Fin 8) (d : Fin 64), j = ix3 p k d := ⟨j 0, j 1, j 2, eq_ix3 j⟩
  have hb : win0_2.index t (0 : Fin 3) * 64 + p.val < 4096 := by have := p.isLt; omega
  refine (block_entry (iblk m c 0 t) (iblk m c 1 t) (argX m c) (argP m c) p ⟨win0_2.index t (0 : Fin 3) * 64 + p.val, hb⟩ ?_ ?_ k d).trans ?_
  · intro l d'
    show V m c main_arg0 (((cfg0.win 0).blk t).view.emb (ix3 p l d')) = _
    rw [V_main_arg0]
    refine congrArg (argX m c) (funext fun a => Fin.ext ?_)
    match a with
    | ⟨0, _⟩ => show win0_0.index t (0 : Fin 3) * 64 + 1 * p.val = win0_2.index t (0 : Fin 3) * 64 + p.val; omega
    | ⟨1, _⟩ => show win0_0.index t (1 : Fin 3) * 200 + 1 * l.val = l.val; omega
    | ⟨2, _⟩ => show win0_0.index t (2 : Fin 3) * 64 + 1 * d'.val = d'.val; omega
  · intro k' d'
    show V m c main_v7 (((cfg0.win 1).blk t).view.emb (ix2 k' d')) = _
    have e : ((cfg0.win 1).blk t).view.emb (ix2 k' d') = ix2 k' d' := funext fun a => Fin.ext (by
      match a with
      | ⟨0, _⟩ => show win0_1.index t (0 : Fin 2) * 8 + 1 * k'.val = k'.val; omega
      | ⟨1, _⟩ => show win0_1.index t (1 : Fin 2) * 64 + 1 * d'.val = d'.val; omega)
    rw [e]
    exact protoRows_apply m c k' d'
  · show projected (argX m c) (argP m c) _ = projected (argX m c) (argP m c) (((cfg0.win 2).blk t).view.emb (ix3 p k d))
    refine congrArg (projected (argX m c) (argP m c)) (funext fun a => Fin.ext ?_)
    match a with
    | ⟨0, _⟩ => show win0_2.index t (0 : Fin 3) * 64 + p.val = win0_2.index t (0 : Fin 3) * 64 + 1 * p.val; omega
    | ⟨1, _⟩ => show k.val = win0_2.index t (1 : Fin 3) * 8 + 1 * k.val; omega
    | ⟨2, _⟩ => show d.val = win0_2.index t (2 : Fin 3) * 64 + 1 * d.val; omega

/-- An index of the result is in point `t`'s block iff each coordinate is in the block's range on its axis. -/
theorem mem_block (t : Fin cfg0.N) (i : S4096x8x64.Idx) :
    i ∈ ((cfg0.win 2).blk t).view.set ↔ ∀ a : Fin 3, win0_2.index t a * S64x8x64.size a ≤ (i a).val ∧ (i a).val < win0_2.index t a * S64x8x64.size a + S64x8x64.size a := by
  show i ∈ ((View.whole main_v8).slice (win0_2.rect t)).set ↔ _
  rw [View.set_slice_whole, Rect.mem_set_unit]
  exact Iff.rfl

/-- The 64 blocks tile the result: sample b lies in the block of point b / 64. -/
theorem covered (i : S4096x8x64.Idx) :
    ∃ t : Fin cfg0.N, (cfg0.win 2).flush t = true ∧ i ∈ ((cfg0.win 2).blk t).view.set := by
  have hi0 : (i 0).val < 4096 := (i 0).isLt
  have hi1 : (i 1).val < 8 := (i 1).isLt
  have hi2 : (i 2).val < 64 := (i 2).isLt
  obtain ⟨t, ht⟩ := index_onto ⟨(i 0).val / 64, by omega⟩
  have q0 : win0_2.index t (0 : Fin 3) = (i 0).val / 64 := congrFun ht 0
  have q1 : win0_2.index t (1 : Fin 3) = 0 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 64 ≤ (i 0).val ∧ (i 0).val < win0_2.index t (0 : Fin 3) * 64 + 64; omega
  | ⟨1, _⟩ => show win0_2.index t (1 : Fin 3) * 8 ≤ (i 1).val ∧ (i 1).val < win0_2.index t (1 : Fin 3) * 8 + 8; omega
  | ⟨2, _⟩ => show win0_2.index t (2 : Fin 3) * 64 ≤ (i 2).val ∧ (i 2).val < win0_2.index t (2 : Fin 3) * 64 + 64; omega

/-- THE RESULT ARRAY after the run is the slot projector of the arguments. -/
theorem final (c : Dev nD) : (dats m 0 c).arrAt 2 cfg0.N = projected (argX m c) (argP m c) :=
  (dats m 0 c).arrAt_eq_of_cover 2 (projected (argX m c) (argP m c)) (fun t _ => flushed_eq m c t) covered

/-- The kernel's run, read: the result at the slot projector of the arguments, the arguments unchanged. -/
theorem run : θ_run defs (onTc (τ := τ) (main (F := Ideal))) ⟨m, fun _ => 0, ρ⟩ fun r => ∀ c : Dev nD,
      r.2.mem ((c : Thread nD τ).loc main_v8) = projected (argX m c) (argP m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelSlots

end
-- ==== Proof.lean ====
/-
  The slot projector: a Pallas kernel against its jnp reference, equal over the extended reals.

  Both programs take inputs X of shape [4096, 200, 64] and prototypes P of shape [8, 64]. Every row of X and of P is scaled by the
  reciprocal root of its squared length clipped below at ε; row l of sample b meets prototype k in the score
  s(b, l, k) = Σ_d X̂(b, l, d) · P̂(k, d); over the 8 scores of a row the weights are the softmax exp (s − μ) / Σ_k exp (s − μ), μ the
  row's largest score; slot k of sample b is Σ_l w(b, l, k) · X(b, l, ·), of the UNSCALED rows (Proof/SlotSpec.lean: `projected`).

  The kernel scales the prototypes on the host, then on a grid of 64 points loads 64 samples at a time, flattens their rows
  into one 12800 × 64 matrix for the score product, takes the softmax along the last axis of a [64, 200, 8] array, and forms
  the slots by one product per sample over the 200 rows. The reference computes the scores for the whole batch as
  [4096, 200, 8], transposes them to [4096, 8, 200], takes the softmax along the middle axis and contracts the last one. At
  the extended reals both are the same sums of the same products: only the order of the axes, the tiling and the spelling of
  the layout operations differ, so no law beyond 0 + x = x and the reindexing of finite sums and of a fold of `max` is used,
  and the finiteness of the inputs is never opened.

  Kernel side: Proof/KernelScores.lean and Proof/KernelWeights.lean read the body's stored value at an index,
  Proof/KernelBlock.lean joins them, Proof/KernelArray.lean goes from the 64 blocks to the whole array. Reference side:
  Proof/RefSlots.lean. No rewrite was applied when the kernel was idealized, so `preserves` has nothing to state.
-/
import proofs.«114951_j21157008900255_1_alg».proof.Defs
import proofs.«114951_j21157008900255_1_alg».proof.Proof.Gen.Kernel
import proofs.«114951_j21157008900255_1_alg».proof.Proof.Gen.Kernel.Skeleton
import proofs.«114951_j21157008900255_1_alg».proof.Proof.Gen.Kernel.Launch
import proofs.«114951_j21157008900255_1_alg».proof.Proof.Gen.Kernel.Points
import proofs.«114951_j21157008900255_1_alg».proof.Proof.Gen.Kernel.Frame
import proofs.«114951_j21157008900255_1_alg».proof.Proof.Gen.KernelIdeal
import proofs.«114951_j21157008900255_1_alg».proof.Proof.Gen.KernelIdeal.Skeleton
import proofs.«114951_j21157008900255_1_alg».proof.Proof.Gen.KernelIdeal.Launch
import proofs.«114951_j21157008900255_1_alg».proof.Proof.Gen.KernelIdeal.Points
import proofs.«114951_j21157008900255_1_alg».proof.Proof.Gen.KernelIdeal.Frame
import proofs.«114951_j21157008900255_1_alg».proof.Proof.Gen.ReferenceIdeal
import proofs.«114951_j21157008900255_1_alg».proof.Proof.Gen.Pre_finite_inputs
import proofs.«114951_j21157008900255_1_alg».proof.Proof.Gen.KernelIdeal.Value
import proofs.«114951_j21157008900255_1_alg».proof.Proof.Gen.ReferenceIdeal.Run
import proofs.«114951_j21157008900255_1_alg».proof.Proof.Gen.ReferenceIdeal.Read
import proofs.«114951_j21157008900255_1_alg».proof.Proof.KernelArray
import proofs.«114951_j21157008900255_1_alg».proof.Proof.RefSlots
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on X and P, the kernel's result array and the reference's both end at the slot projector of
    (X, P): the kernel's by the 64 blocks tiling the array, the reference's stage by stage. -/
theorem algebraic : Cert.algebraic_KernelIdeal_ReferenceIdeal := by
  intro m ρ m' ρ' _ hagree
  refine ⟨fun c => Cert.SlotSpec.projected (Cert.KernelSlots.argX m c) (Cert.KernelSlots.argP m c), Cert.KernelSlots.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.RefSlots.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
